-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S1024x256 : Shape := ⟨2, ![1024, 256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_

variable [Facts]

def fn {F : FTy → Type} [FloatOps F] (main_arg0 : FVec F S131072x256 .f32) (main_arg1 : FVec F S1024x256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  main_v8
-- ==== Kernel.lean ====
abbrev S131072x256 : Shape := ⟨2, ![131072, 256]⟩
abbrev S1024x256 : Shape := ⟨2, ![1024, 256]⟩
abbrev S2x8x128 : Shape := ⟨3, ![2, 8, 128]⟩
abbrev S2048x256 : Shape := ⟨2, ![2048, 256]⟩
abbrev S1x8x128 : Shape := ⟨3, ![1, 8, 128]⟩
abbrev S256x1024 : Shape := ⟨2, ![256, 1024]⟩
abbrev S2048x1024 : Shape := ⟨2, ![2048, 1024]⟩
abbrev S2048 : Shape := ⟨1, ![2048]⟩
abbrev S2048x1 : Shape := ⟨2, ![2048, 1]⟩
abbrev S1024 : Shape := ⟨1, ![1024]⟩
abbrev S1024x1 : Shape := ⟨2, ![1024, 1]⟩
abbrev S1x1024 : Shape := ⟨2, ![1, 1024]⟩
abbrev S1 : Shape := ⟨1, ![1]⟩
abbrev S1x1 : Shape := ⟨2, ![1, 1]⟩
abbrev S8x128 : Shape := ⟨2, ![8, 128]⟩
abbrev S_ : Shape := ⟨0, ![]⟩

abbrev nBuf : Space → Nat
  | .hbm => 7
  | .vmem => 5
  | .smem => 0
  | _ => 0

abbrev bufTy : (tb : Table) → Fin (tcTables nBuf tb) → BufTy
  | .hbm, ⟨0, _⟩ => ⟨S131072x256, .f32⟩
  | .hbm, ⟨1, _⟩ => ⟨S1024x256, .f32⟩
  | .hbm, ⟨2, _⟩ => ⟨S2x8x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S2048x256, .f32⟩
  | .local _ .vmem, ⟨1, _⟩ => ⟨S2048x256, .f32⟩
  | .local _ .vmem, ⟨2, _⟩ => ⟨S1024x256, .f32⟩
  | .local _ .vmem, ⟨3, _⟩ => ⟨S1x8x128, .f32⟩
  | .local _ .vmem, ⟨4, _⟩ => ⟨S1x8x128, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x8x128_S1x8x128_0_0_0 : ∀ a, (![0, 0, 0] : Fin 3 → Nat) a + S1x8x128.size a ≤ S1x8x128.size a
  h_S1x8x128 : 0 < S1x8x128.numel
  inb_S2048x256_S2048x256_0_0 : ∀ a, (![0, 0] : Fin 2 → Nat) a + S2048x256.size a ≤ S2048x256.size a
  h_S2048x256 : 0 < S2048x256.numel
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  transposes_S1024x256_p1_0_S256x1024 : S1024x256.Transposes [1, 0] S256x1024
  reduces_S2048x256_S2048 : S2048x256.Reduces [1] S2048
  shapeCasts_S2048_S2048x1 : S2048.ShapeCasts S2048x1
  reduces_S1024x256_S1024 : S1024x256.Reduces [1] S1024
  shapeCasts_S1024_S1024x1 : S1024.ShapeCasts S1024x1
  transposes_S1024x1_p1_0_S1x1024 : S1024x1.Transposes [1, 0] S1x1024
  broadcasts_S2048x1_S2048x1024 : S2048x1.Broadcasts S2048x1024
  broadcasts_S1x1024_S2048x1024 : S1x1024.Broadcasts S2048x1024
  reduces_S2048x1024_S2048 : S2048x1024.Reduces [1] S2048
  reduces_S2048x1_S1 : S2048x1.Reduces [0] S1
  shapeCasts_S1_S1x1 : S1.ShapeCasts S1x1
  shapeCasts_S1x1_S1x1 : S1x1.ShapeCasts S1x1
  broadcasts_S1x1_S8x128 : S1x1.Broadcasts S8x128
  shapeCasts_S1x8x128_S1x8x128 : S1x8x128.ShapeCasts S1x8x128
  shapeCasts_S8x128_S1x8x128 : S8x128.ShapeCasts S1x8x128
  reducesTo_S2x8x128_S_d0_1_2 : S2x8x128.ReducesTo [0, 1, 2] S_
  h_S_ : 0 < S_.numel
  dot_S2048x256_S256x1024_S2048x1024_1_0_0_1_n_n_wf : DotDims.WF S2048x256 S256x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S131072x256.size a
  hwx0_0 : ∀ i : grid0.Coords, EltTy.bits .f32 = 32 ∨ (Rect.block (s := S131072x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)

variable [Facts₀]

def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S131072x256 : Shape := ⟨2, ![131072, 256]⟩
abbrev S1024x256 : Shape := ⟨2, ![1024, 256]⟩
abbrev S_ : Shape := ⟨0, ![]⟩
abbrev S131072 : Shape := ⟨1, ![131072]⟩
abbrev S131072x1 : Shape := ⟨2, ![131072, 1]⟩
abbrev S1024 : Shape := ⟨1, ![1024]⟩
abbrev S1x1024 : Shape := ⟨2, ![1, 1024]⟩
abbrev S256x1024 : Shape := ⟨2, ![256, 1024]⟩
abbrev S131072x1024 : Shape := ⟨2, ![131072, 1024]⟩

abbrev nBuf : Space → Nat
  | .hbm => 25
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S1024x256, .f32⟩
  | .hbm, ⟨2, _⟩ => ⟨S131072x256, .f32⟩
  | .hbm, ⟨3, _⟩ => ⟨S_, .f32⟩
  | .hbm, ⟨4, _⟩ => ⟨S131072, .f32⟩
  | .hbm, ⟨5, _⟩ => ⟨S131072x1, .f32⟩
  | .hbm, ⟨6, _⟩ => ⟨S1024x256, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S256x1024, .f32⟩
  | .hbm, ⟨11, _⟩ => ⟨S131072x1024, .f32⟩
  | .hbm, ⟨12, _⟩ => ⟨S131072x1024, .f32⟩
  | .hbm, ⟨13, _⟩ => ⟨S131072x1024, .f32⟩
  | .hbm, ⟨14, _⟩ => ⟨S131072x1024, .f32⟩
  | .hbm, ⟨15, _⟩ => ⟨S_, .f32⟩
  | .hbm, ⟨16, _⟩ => ⟨S131072x1024, .f32⟩
  | .hbm, ⟨17, _⟩ => ⟨S131072x1024, .f32⟩
  | .hbm, ⟨18, _⟩ => ⟨S131072x1024, .f32⟩
  | .hbm, ⟨19, _⟩ => ⟨S_, .f32⟩
  | .hbm, ⟨20, _⟩ => ⟨S131072, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  reducesTo_S131072x256_S131072_d1 : S131072x256.ReducesTo [1] S131072
  h_S_ : 0 < S_.numel
  bcast_S131072_S131072x1_0 : S131072.BroadcastsInDim S131072x1 (![0] : Fin 1 → Fin S131072x1.rank)
  reducesTo_S1024x256_S1024_d1 : S1024x256.ReducesTo [1] S1024
  bcast_S1024_S1x1024_1 : S1024.BroadcastsInDim S1x1024 (![1] : Fin 1 → Fin S1x1024.rank)
  transposes_S1024x256_S256x1024_1_0 : S1024x256.Transposes [1, 0] S256x1024
  bcast_S131072x1_S131072x1024_0_1 : S131072x1.BroadcastsInDim S131072x1024 (![0, 1] : Fin 2 → Fin S131072x1024.rank)
  bcast_S1x1024_S131072x1024_0_1 : S1x1024.BroadcastsInDim S131072x1024 (![0, 1] : Fin 2 → Fin S131072x1024.rank)
  bcast_S_S131072x1024 : S_.BroadcastsInDim S131072x1024 (![] : Fin 0 → Fin S131072x1024.rank)
  reducesTo_S131072x1024_S131072_d1 : S131072x1024.ReducesTo [1] S131072
  reducesTo_S131072_S_d0 : S131072.ReducesTo [0] S_
  dot_S131072x256_S256x1024_S131072x1024_1_0_0_1_n_n_wf : DotDims.WF S131072x256 S256x1024 S131072x1024 [1] [0] [0] [1] [] []

variable [Facts₀]

def dot_S131072x256_S256x1024_S131072x1024_1_0_0_1_n_n : DotDims S131072x256 S256x1024 S131072x1024 where
  lhsContracting := [1]
  rhsContracting := [0]
  lhsNonContracting := [0]
  rhsNonContracting := [1]
  lhsBatch := []
  rhsBatch := []
  wf := dot_S131072x256_S256x1024_S131072x1024_1_0_0_1_n_n_wf

class Facts : Prop extends Facts₀ where

variable [Facts]
-- ==== Proof.KernelCases.lean ====
import proofs.«161431_j1829656068283_1_alg».proof.Proof.Gen.KernelIdeal.Frame
import Idealize.ShloMosaic.Lib.Pipeline.Value
import Idealize.ShloMosaic.Lib.Tactic

/-!
  What the accumulator tile holds after the body at one grid point, in each of the body's two cases, as a value at any
  float instance. At the first block of a half the body first overwrites the tile with zeros and then adds this
  block's contribution to what it reads back, so the tile ends at the payload over the zero tile. At every other block
  it adds the contribution to what the block before left.
-/

noncomputable section

namespace Cert.KernelIdeal.Cases

open Idealize.ShloMosaic Idealize.ShloMosaic.TcCoe Idealize.SL.Sem
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A later block of a half: the tile holding `xo` ends at the payload of the two input blocks over `xo`. -/
theorem out_B (c : Dev nD) (i : grid0.Coords) (a2 : Memref sig .tc .vmem S2048x256 .f32) (h2 : a2.IsWhole)
    (a3 : Memref sig .tc .vmem S1024x256 .f32) (h3 : a3.IsWhole) (a4 : Memref sig .tc .vmem S1x8x128 .f32) (h4 : a4.IsWhole)
    (hc : ¬cond0_0 i) (x0 : Vec F S2048x256 .f32) (x1 : Vec F S1024x256 .f32) (xo : Vec F S1x8x128 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz3]
  simp only [View.readAt_eq_ld, h2.read_unread, h3.read_unread, h4.read_unread, View.ld_unit_zero (S := S2048x256) hz2,
    View.ld_unit_zero (S := S1024x256) hz2, View.ld_unit_zero (S := S1x8x128) hz3]

/-- The first block of a half: the tile is overwritten with the zero tile, read back, and ends at the payload of the two
    input blocks over the zero tile. -/
theorem out_A (c : Dev nD) (i : grid0.Coords) (a2 : Memref sig .tc .vmem S2048x256 .f32) (h2 : a2.IsWhole)
    (a3 : Memref sig .tc .vmem S1024x256 .f32) (h3 : a3.IsWhole) (a4 : Memref sig .tc .vmem S1x8x128 .f32) (h4 : a4.IsWhole)
    (hc : cond0_0 i) (x0 : Vec F S2048x256 .f32) (x1 : Vec F S1024x256 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x8x128) hz3, View.readCov_unit_zero (S := S1x8x128) _ hz3]
  simp only [View.readAt_eq_ld, h2.read_unread, h3.read_unread, View.ld_unit_zero (S := S2048x256) hz2,
    View.ld_unit_zero (S := S1024x256) hz2, View.ld_unit_zero (S := S1x8x128) hz3]

end Cert.KernelIdeal.Cases

end
-- ==== Proof.Nearest.lean ====
import Idealize.ShloMosaic.PureOps.Ideal.Laws
import Idealize.ShloMosaic.Lib.ValueIdx

/-!
  The quantity both programs compute, over plain functions. For a row `u` of 256 entries and a table `c` of 1024
  rows, the squared distance from `u` to row `k` of the table is taken in its expanded form
  ‖u‖² + ‖c k‖² − 2·⟨u, c k⟩, and the distance to the nearest row is the least of the 1024, taken as the fold of
  `min` from +∞. The literal 2 and the +∞ are kept as the words both programs print: they are the same words on both
  sides and are never evaluated. The only literal whose value matters is 1024, by which one program divides each
  block's sum before it adds the quotient 1024 times over.
-/

open scoped BigOperators

noncomputable section

namespace Cert.Nearest

open Idealize.ShloMosaic

/-- ‖v‖²: the sum of the squares of the 256 entries. -/
def sqn (v : Fin 256 → EReal) : EReal := ∑ d : Fin 256, v d * v d

/-- ⟨u, v⟩: the sum of the 256 products. -/
def dot (u v : Fin 256 → EReal) : EReal := ∑ d : Fin 256, u d * v d

/-- The f32 word of the literal 2. -/
abbrev two : EReal := Ideal.ofBits .f32 0x40000000#32

/-- The f32 word of +∞, from which the least distance is folded. -/
abbrev pinf : EReal := Ideal.ofBits .f32 0x7F800000#32

/-- The squared distance between `u` and `v`, expanded: (‖u‖² + ‖v‖²) − 2·⟨u, v⟩. -/
def dist2 (u v : Fin 256 → EReal) : EReal := (sqn u + sqn v) - two * dot u v

/-- The squared distance from `u` to the nearest of the 1024 rows of `c`: the fold of `min` from +∞. -/
def nearest (u : Fin 256 → EReal) (c : Fin 1024 → Fin 256 → EReal) : EReal :=
  (Finset.univ : Finset (Fin 1024)).fold (FloatOps.minimumf (F := Ideal) (φ := .f32)) pinf (fun k => dist2 u (c k))

/-- Row `n` of an array of `R` rows of 256 entries. -/
abbrev rowOf {R : Nat} (x : (⟨2, ![R, 256]⟩ : Shape).Idx → EReal) (n : Fin R) : Fin 256 → EReal :=
  fun d => x (ValueIdx.ix2 n d)

/-- The nearest-row distance of row `n` of `X` against the table `C`, as a function of a natural number (zero past
    the last row, where nothing reads it). -/
def rowVal (X : (⟨2, ![131072, 256]⟩ : Shape).Idx → EReal) (C : (⟨2, ![1024, 256]⟩ : Shape).Idx → EReal) (n : ℕ) : EReal :=
  if h : n < 131072 then nearest (rowOf X ⟨n, h⟩) (fun k => rowOf C k) else 0

/-- What both programs end at: the sum, from the zero word, of the nearest-row distances of the 131072 rows of `X`
    against the table `C`, divided by the f32 word of 131072 — the mean, as a rank-0 array. The two words are the same on
    both sides and are never evaluated. -/
def meanNearest (X : (⟨2, ![131072, 256]⟩ : Shape).Idx → EReal) (C : (⟨2, ![1024, 256]⟩ : Shape).Idx → EReal) :
    (⟨0, ![]⟩ : Shape).Idx → EReal :=
  fun _ => Ideal.div (Ideal.ofBits .f32 0x00000000#32 + ∑ j : (⟨1, ![131072]⟩ : Shape).Idx, rowVal X C (j 0).val)
    (Ideal.ofBits .f32 0x48000000#32)

/-- 1/1024 as an extended real. -/
abbrev kappa : EReal := ((1 / 1024 : ℝ) : EReal)

/-- The f32 word of 1024.0 denotes the real 1024. -/
theorem ofBits_1024 : Ideal.ofBits .f32 0x44800000#32 = ((1024 : ℝ) : EReal) := by
  simp [Ideal.ofBits, Ideal.ieee, -EReal.coe_mul]; norm_num

/-- Dividing by that word is multiplying by 1/1024, on every extended real. -/
theorem div_1024 (s : EReal) : Ideal.div s (Ideal.ofBits .f32 0x44800000#32) = s * kappa := by
  rw [ofBits_1024]; exact Ideal.div_coe (by norm_num) s

end Cert.Nearest

end
-- ==== Proof.LibPlainDot.lean ====
import Idealize.ShloMosaic.PureOps.Ideal.Laws
import Idealize.ShloMosaic.Lib.ValueIdx
import Idealize.ShloMosaic.PureOps.Dims

/-!
  A plain matrix product: a left operand of shape [M, K] contracted on its axis 1 against a right operand of shape
  [K, N] contracted on its axis 0, with no batch axes, gives a result of shape [M, N] whose entry (p, q) is the sum
  over k < K of l(p, k) · r(k, q). The dimension record is a variable and its six lists are hypotheses, so the lemmas
  apply to every record of this shape.
-/

open scoped BigOperators

namespace Cert.Lib.PlainDot

open Idealize.ShloMosaic Idealize.ShloMosaic.ValueIdx

variable {M K N : Nat} (d : DotDims ⟨2, ![M, K]⟩ ⟨2, ![K, N]⟩ ⟨2, ![M, N]⟩)

/-- With one contracting axis the contraction shape has rank one. -/
theorem rank_contr_eq_one (hlc : d.lhsContracting = [1]) : d.contr.rank = 1 := by
  rw [d.rank_contr, hlc]; rfl

/-- The one axis of the contraction shape has the extent K of the left operand's axis 1. -/
theorem size_contr_eq (hlc : d.lhsContracting = [1]) :
    d.contr.size ⟨0, by rw [rank_contr_eq_one d hlc]; exact Nat.one_pos⟩ = K := by
  have h0 : 0 < d.lhsContracting.length := by rw [hlc]; exact Nat.one_pos
  rw [d.size_contr 0 h0]
  have h1 : d.lhsContracting[0] = 1 := by simp [hlc]
  rw [h1]; rfl

/-- The left operand's index reads, on its non-contracting axis 0, the result index's row. -/
theorem lhsIdx_zero_val (hln : d.lhsNonContracting = [0]) (hlb : d.lhsBatch = [])
    (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (n : Nat) (h : n < (⟨2, ![M, N]⟩ : Shape).rank), n = 0 → (j ⟨n, h⟩).val = (j 0).val :=
    fun n h e => by subst e; rfl
  exact key _ _ (by simp [hlb, hln])

/-- The right operand's index reads, on its non-contracting axis 1, the result index's column. -/
theorem rhsIdx_one_val (hln : d.lhsNonContracting = [0]) (hrn : d.rhsNonContracting = [1])
    (hlb : d.lhsBatch = []) (hrb : d.rhsBatch = [])
    (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (n : Nat) (h : n < (⟨2, ![M, N]⟩ : Shape).rank), n = 1 → (j ⟨n, h⟩).val = (j 1).val :=
    fun n h e => by subst e; rfl
  exact key _ _ (by simp [hlb, hln, hrn])

/-- The contraction sum of a plain matrix product at entry (p, q), re-indexed by the one contraction coordinate, is the
    sum over k < K of l(p, k) · r(k, q). -/
theorem sum_eq (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  have hr : d.contr.rank = 1 := rank_contr_eq_one d hlc
  have hs : d.contr.size ⟨0, by omega⟩ = K := size_contr_eq d hlc
  refine (Equiv.sum_comp (contrEquiv1 d K hr hs).symm
    (fun k => l (d.lhsIdx (ix2 p q) k) * r (d.rhsIdx (ix2 p q) k))).symm.trans ?_
  refine Finset.sum_congr rfl fun i _ => ?_
  have hL : d.lhsIdx (ix2 p q) ((contrEquiv1 d K hr hs).symm i) = ix2 p i := by
    funext a
    match a with
    | ⟨0, _⟩ => exact Fin.ext (lhsIdx_zero_val d hln hlb _ _)
    | ⟨1, _⟩ => exact Fin.ext ((d.lhsIdx_val_of_single hlc _ _).trans (contrEquiv1_symm_val d K hr hs i))
  have hR : d.rhsIdx (ix2 p q) ((contrEquiv1 d K hr hs).symm i) = ix2 i q := by
    funext a
    match a with
    | ⟨0, _⟩ => exact Fin.ext ((d.rhsIdx_val_of_single hrc _ _).trans (contrEquiv1_symm_val d K hr hs i))
    | ⟨1, _⟩ => exact Fin.ext (rhsIdx_one_val d hln hrn hlb hrb _ _)
  show l _ * r _ = _
  rw [hL, hR]

/-- A plain matrix product accumulated into the zero splat, read at entry (p, q) at the ideal values, is the sum over
    k < K of l(p, k) · r(k, q). -/
theorem matmul_zero_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) :=
  (Ideal.matmul_constant_zero_apply d prec l r (ix2 p q)).trans (sum_eq d hlc hrc hln hrn hlb hrb l r p q)

/-- The host's plain matrix product, read at entry (p, q) at the ideal values, is the sum over k < K of
    l(p, k) · r(k, q), whatever the schedule. -/
theorem dotGeneral_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) :=
  (Ideal.dotGeneral_apply d prec sched l r (ix2 p q)).trans (sum_eq d hlc hrc hln hrn hlb hrb l r p q)

end Cert.Lib.PlainDot
-- ==== Proof.KernelBody.lean ====
import proofs.«161431_j1829656068283_1_alg».proof.Proof.Gen.KernelIdeal.Skeleton
import proofs.«161431_j1829656068283_1_alg».proof.Proof.Nearest
import proofs.«161431_j1829656068283_1_alg».proof.Proof.LibPlainDot
import Idealize.ShloMosaic.Lib.Pipeline.Value
import Idealize.ShloMosaic.Lib.ValueLayout

/-!
  What one grid point adds to the accumulator tile, read at the ideal values: every entry of the [1, 8, 128] tile gets
  the same number, the sum over the block's 2048 rows of the distance to the nearest table row, times 1/1024.
-/

open scoped BigOperators

noncomputable section

namespace Cert.KernelIdeal.Body

open Idealize.ShloMosaic Idealize.ShloMosaic.ValueIdx Cert.KernelIdeal Cert.KernelIdeal.Gen Cert.Nearest

/-- The sum over the 2048 rows of a block `x0` of the distance to the nearest of the 1024 rows of the table `x1`. -/
def blockSum (x0 : Vec Ideal S2048x256 .f32) (x1 : Vec Ideal S1024x256 .f32) : EReal :=
  ∑ r : Fin 2048, nearest (rowOf (R := 2048) x0 r) (fun k => rowOf (R := 1024) x1 k)

/-! ## Layout operations of a keepdims column, read at coordinates -/

section Layout
variable {α : Type}

/-- A vector `[n]` cast to the column `[n, 1]` reads, at `(i, u)`, the operand at `i`. -/
theorem shapeCast_a_a1_apply {n : ℕ} (x : (⟨1, ![n]⟩ : Shape).Idx → α) (h : (⟨1, ![n]⟩ : Shape).ShapeCasts ⟨2, ![n, 1]⟩)
    (i : Fin n) (u : Fin 1) : shapeCast ⟨2, ![n, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[m, 1]` broadcast to `[m, n]` reads, at `(p, c)`, the column's entry of row `p`. -/
theorem broadcastTo_a1_ab_apply {m n : ℕ} (v : (⟨2, ![m, 1]⟩ : Shape).Idx → α)
    (h : (⟨2, ![m, 1]⟩ : Shape).Broadcasts ⟨2, ![m, n]⟩) (p : Fin m) (c : Fin n) :
    broadcastTo ⟨2, ![m, n]⟩ v h (ix2 p c) = v (ix2 p (0 : Fin 1)) := by
  refine broadcastTo_apply v h (ix2 p c) (ix2 p (0 : Fin 1)) fun ax => ?_
  match ax with
  | ⟨0, _⟩ =>
    show p.val = if m = 1 then 0 else p.val
    split
    · have := p.isLt; omega
    · rfl
  | ⟨1, _⟩ => rfl

/-- A `[1, 1]` array broadcast to `[m, n]` reads its one entry everywhere. -/
theorem broadcastTo_11_ab_apply {m n : ℕ} (v : (⟨2, ![1, 1]⟩ : Shape).Idx → α)
    (h : (⟨2, ![1, 1]⟩ : Shape).Broadcasts ⟨2, ![m, n]⟩) (p : Fin m) (c : Fin n) :
    broadcastTo ⟨2, ![m, n]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end Layout

/-! ## The three reductions, read at coordinates -/

/-- The sum along axis 1 of an `[R, 256]` array, read at row `k`: the sum over the row's 256 entries. -/
theorem rowSum_apply {R : ℕ} (x : FVec Ideal ⟨2, ![R, 256]⟩ .f32) (h : (⟨2, ![R, 256]⟩ : Shape).Reduces [1] ⟨1, ![R]⟩)
    (hφ : FKind.Formats .f32) (hacc : (0x00000000#32 : BitVec 32) = FKind.add.neutral .f32 hφ) (k : Fin R) :
    multiReduction (F := Ideal) .add [1] ⟨1, ![R]⟩ x 0x00000000#32 h hφ hacc (ix1 k) = ∑ d : Fin 256, x (ix2 k d) := by
  refine (Ideal.multiReduction_add_single x 0x00000000#32 h hφ hacc (ix1 k)).trans ?_
  refine Finset.sum_congr rfl fun d _ => congrArg x ?_
  funext c
  match c with
  | ⟨0, _⟩ => rfl
  | ⟨1, _⟩ => rfl

/-- The sum along axis 0 of an `[R, 1]` column, read at its one entry: the sum over the R rows. -/
theorem colSum_apply {R : ℕ} (x : FVec Ideal ⟨2, ![R, 1]⟩ .f32) (h : (⟨2, ![R, 1]⟩ : Shape).Reduces [0] ⟨1, ![1]⟩)
    (hφ : FKind.Formats .f32) (hacc : (0x00000000#32 : BitVec 32) = FKind.add.neutral .f32 hφ) (u : Fin 1) :
    multiReduction (F := Ideal) .add [0] ⟨1, ![1]⟩ x 0x00000000#32 h hφ hacc (ix1 u) = ∑ k : Fin R, x (ix2 k (0 : Fin 1)) := by
  refine (Ideal.multiReduction_add_single x 0x00000000#32 h hφ hacc (ix1 u)).trans ?_
  refine Finset.sum_congr rfl fun k _ => congrArg x ?_
  funext c
  match c with
  | ⟨0, _⟩ => rfl
  | ⟨1, _⟩ => exact Fin.ext (by have := u.isLt; show u.val = 0; omega)

/-- The least entry along axis 1 of an `[R, N]` array from the word `acc`, read at row `k`: the fold of `min` over the
    row's N entries. -/
theorem rowMin_apply {R N : ℕ} (x : FVec Ideal ⟨2, ![R, N]⟩ .f32) (acc : BitVec 32)
    (h : (⟨2, ![R, N]⟩ : Shape).Reduces [1] ⟨1, ![R]⟩)
    (hφ : FKind.Formats .f32) (hacc : acc = FKind.minimumf.neutral .f32 hφ) (k : Fin R) :
    multiReduction (F := Ideal) .minimumf [1] ⟨1, ![R]⟩ x acc h hφ hacc (ix1 k)
      = (Finset.univ : Finset (Fin N)).fold (FloatOps.minimumf (F := Ideal) (φ := .f32)) (Ideal.ofBits .f32 acc)
          (fun c => x (ix2 k c)) := by
  refine (multiReduction_minimumf_eq_fold x acc h hφ hacc (ix1 k)).trans ?_
  refine (h.fold_filter_drop_single _ _ x (ix1 k)).trans ?_
  refine Finset.fold_congr fun c _ => congrArg x ?_
  funext a
  match a with
  | ⟨0, _⟩ => rfl
  | ⟨1, _⟩ => rfl

/-- The body's store payload at an entry of the tile: the tile's previous entry plus the block's sum times 1/1024. -/
theorem pay2_apply (x0 : Vec Ideal S2048x256 .f32) (x1 : Vec Ideal S1024x256 .f32) (a : Vec Ideal S1x8x128 .f32)
    (i : S1x8x128.Idx) :
    k0_pay2 (F := Ideal) x0 x1 a i = a i + blockSum x0 x1 * kappa := by
  obtain ⟨p, q, r, rfl⟩ : ∃ (p : Fin 1) (q : Fin 8) (r : Fin 128), i = ix3 p q r := ⟨i 0, i 1, i 2, eq_ix3 i⟩
  unfold k0_pay2
  -- the payload is the previous entry plus the broadcast quotient: read the sum at the entry
  refine (addf_apply _ _ _).trans ?_
  refine congrArg₂ (· + ·) (congrFun (shapeCast_self a _) _) ?_
  -- every entry of the [1, 8, 128] tile reads the one entry of the [1, 1] quotient
  refine (shapeCast_ab_1ab_apply _ _ p q r).trans ?_
  refine (broadcastTo_11_ab_apply _ _ q r).trans ?_
  refine (congrFun (shapeCast_self _ _) _).trans ?_
  -- the quotient by the word of 1024 is the product with 1/1024
  refine (divf_apply _ _ _).trans ?_
  refine (div_1024 _).trans ?_
  refine congrArg (· * kappa) ?_
  -- the dividend is the sum over the 2048 rows of the column of row minima
  refine (shapeCast_a_1a_apply _ _ (0 : Fin 1) (0 : Fin 1)).trans ?_
  refine (colSum_apply _ _ _ _ (0 : Fin 1)).trans ?_
  unfold blockSum
  refine Finset.sum_congr rfl fun k _ => ?_
  -- row k's minimum is the fold of min from +∞ over the 1024 entries of row k of the distance array
  refine (shapeCast_a_a1_apply _ _ k (0 : Fin 1)).trans ?_
  refine (rowMin_apply _ _ _ _ _ k).trans ?_
  unfold nearest
  refine Finset.fold_congr fun c _ => ?_
  -- entry (k, c) of the distance array is (‖x0 k‖² + ‖x1 c‖²) − 2·⟨x0 k, x1 c⟩
  refine (subf_apply _ _ _).trans ?_
  unfold dist2
  refine congrArg₂ (· - ·) ?_ ?_
  · refine (addf_apply _ _ _).trans ?_
    refine congrArg₂ (· + ·) ?_ ?_
    · -- the column of squared norms of the block's rows, spread along the columns
      refine (broadcastTo_a1_ab_apply _ _ k c).trans ?_
      refine (shapeCast_a_a1_apply _ _ k (0 : Fin 1)).trans ?_
      exact rowSum_apply _ _ _ _ k
    · -- the row of squared norms of the table's rows, spread along the rows
      refine (broadcastTo_1b_ab_apply _ _ k c).trans ?_
      refine (transpose_ix2_apply _ _ (0 : Fin 1) c).trans ?_
      refine (shapeCast_a_a1_apply _ _ c (0 : Fin 1)).trans ?_
      exact rowSum_apply _ _ _ _ c
  · -- the product of the block with the transposed table at (k, c) is the inner product of row k and table row c
    refine (mulf_apply _ _ _).trans ?_
    refine congrArg₂ (· * ·) rfl ?_
    refine (Cert.Lib.PlainDot.matmul_zero_apply _ rfl rfl rfl rfl rfl rfl none _ _ k c).trans ?_
    unfold dot
    refine Finset.sum_congr rfl fun d _ => ?_
    refine congrArg₂ (· * ·) rfl ?_
    exact transpose_ix2_apply _ _ d c

end Cert.KernelIdeal.Body

end
-- ==== Proof.TileLaw.lean ====
import proofs.«161431_j1829656068283_1_alg».proof.Proof.Nearest

/-!
  The summation law that joins the two programs, over an arbitrary function `g` of the row number. The rows are cut
  into 64 blocks of 2048. One program adds, for each of two halves of 32 blocks, the blocks' sums each multiplied by
  1/1024, one block after the other, starting afresh at the first block of a half; it then adds the half's total 1024
  times over (once per entry of an 8 × 128 tile) and the two halves together. The other program adds all 131072 values
  of `g`. The two agree on the extended reals, infinities included: multiplying by the nonnegative real 1/1024
  distributes over sums there, and 1024 copies of s · (1/1024) add up to s.
-/

open scoped BigOperators

noncomputable section

namespace Cert.TileLaw

open Idealize.ShloMosaic Cert.Nearest

/-- The sum of `g` over the 2048 rows of block `p`. -/
def tile (g : ℕ → EReal) (p : ℕ) : EReal := ∑ r : Fin 2048, g (p * 2048 + r.val)

/-- The running total after block `n`: restarted at the first block of each half of 32 blocks, and otherwise the total
    after the block before plus this block's sum times 1/1024. -/
def acc (g : ℕ → EReal) : ℕ → EReal
  | 0 => tile g 0 * kappa
  | n + 1 => if (n + 1) % 32 = 0 then tile g (n + 1) * kappa else acc g n + tile g (n + 1) * kappa

/-! ### Multiplying by 1/1024 -/

/-- 1/1024 is nonnegative. -/
theorem kappa_nonneg : (0 : EReal) ≤ kappa :=
  EReal.coe_nonneg.2 (by norm_num)

/-- 1/1024 is finite. -/
theorem kappa_ne_top : kappa ≠ ⊤ := EReal.coe_ne_top _

/-- Multiplying by 1/1024 distributes over the sum of any two extended reals. -/
theorem add_mul_kappa (y z : EReal) : (y + z) * kappa = y * kappa + z * kappa :=
  EReal.right_distrib_of_nonneg_of_ne_top kappa_nonneg kappa_ne_top y z

/-- … hence over every finite sum. -/
theorem sum_mul_kappa {ι : Type*} (s : Finset ι) (f : ι → EReal) :
    (∑ i ∈ s, f i) * kappa = ∑ i ∈ s, f i * kappa := by
  classical
  induction s using Finset.induction_on with
  | empty => simp
  | insert a s ha ih => rw [Finset.sum_insert ha, Finset.sum_insert ha, add_mul_kappa, ih]

/-- 1/1024 times 1024 is 1. -/
theorem kappa_mul_1024 : kappa * ((1024 : ℕ) : EReal) = 1 := by
  rw [← EReal.coe_coe_eq_natCast]
  show ((1 / 1024 : ℝ) : EReal) * (((1024 : ℕ) : ℝ) : EReal) = 1
  rw [← EReal.coe_mul, ← EReal.coe_one]
  congr 1
  norm_num

/-- 1024 copies of s · (1/1024) add up to s, for every extended real s. -/
theorem nsmul_1024_mul_kappa (s : EReal) : (1024 : ℕ) • (s * kappa) = s := by
  rw [EReal.nsmul_eq_mul, mul_comm, mul_assoc, kappa_mul_1024, mul_one]

/-! ### The running total in closed form -/

/-- At the first block of a half the running total is that block's sum times 1/1024. -/
theorem acc_restart (g : ℕ → EReal) (n : ℕ) (h : n % 32 = 0) : acc g n = tile g n * kappa := by
  cases n with
  | zero => rfl
  | succ m => rw [acc, if_pos h]

/-- Elsewhere it is the total after the block before plus this block's sum times 1/1024. -/
theorem acc_step (g : ℕ → EReal) (n : ℕ) (h : (n + 1) % 32 ≠ 0) :
    acc g (n + 1) = acc g n + tile g (n + 1) * kappa := by
  rw [acc, if_neg h]

/-- Inside half `c`, after its block number `k`, the running total is the sum of the blocks' sums so far, each
    times 1/1024. -/
theorem acc_block (g : ℕ → EReal) (c : ℕ) :
    ∀ k : ℕ, k < 32 → acc g (32 * c + k) = ∑ i ∈ Finset.range (k + 1), tile g (32 * c + i) * kappa
  | 0, _ => by
      rw [acc_restart g (32 * c + 0) (by omega), Finset.sum_range_one]
  | k + 1, hk => by
      rw [← Nat.add_assoc, acc_step g (32 * c + k) (by omega), acc_block g c k (by omega),
        Finset.sum_range_succ _ (k + 1), Nat.add_assoc]

/-- The half's total after its last block: the sum of its 32 blocks' sums, times 1/1024. -/
theorem acc_last (g : ℕ → EReal) (c : ℕ) :
    acc g (32 * c + 31) = (∑ i ∈ Finset.range 32, tile g (32 * c + i)) * kappa := by
  rw [acc_block g c 31 (by omega), sum_mul_kappa]

/-! ### Re-indexing -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ValueIdx.ix3 p.1 p.2.1 p.2.2
  left_inv i := (ValueIdx.eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ValueIdx.ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-1 index set is its one coordinate range … -/
def idxEquiv1 {n : Nat} : (⟨1, ![n]⟩ : Shape).Idx ≃ Fin n where
  toFun i := i 0
  invFun a := ValueIdx.ix1 a
  left_inv i := (ValueIdx.eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ValueIdx.ix1 a) := by
  rw [← Equiv.sum_comp (idxEquiv1 (n := n)).symm f]
  rfl

/-- `m` consecutive runs of `n` numbers are the first `m * n` numbers. -/
theorem sum_runs {M : Type*} [AddCommMonoid M] (f : ℕ → M) (n : ℕ) :
    ∀ m : ℕ, ∑ p ∈ Finset.range m, ∑ r ∈ Finset.range n, f (p * n + r) = ∑ k ∈ Finset.range (m * n), f k
  | 0 => by simp
  | m + 1 => by
      rw [Finset.sum_range_succ, sum_runs f n m, Nat.succ_mul, Finset.sum_range_add]

/-- A block's sum, over the numbers below 2048. -/
theorem tile_eq_range (g : ℕ → EReal) (p : ℕ) : tile g p = ∑ r ∈ Finset.range 2048, g (p * 2048 + r) :=
  Fin.sum_univ_eq_sum_range (fun r => g (p * 2048 + r)) 2048

/-- THE LAW: the half's total after its last block, added over every entry of the [2, 8, 128] result (the first
    coordinate is the half), is the sum of `g` over all 131072 rows. -/
theorem sum_acc (g : ℕ → EReal) :
    ∑ i : (⟨3, ![2, 8, 128]⟩ : Shape).Idx, acc g (32 * (i 0).val + 31)
      = ∑ j : (⟨1, ![131072]⟩ : Shape).Idx, g (j 0).val := by
  -- the right side: the sum over the first 131072 numbers
  rw [sum_idx1 (fun j => g (j 0).val)]
  show _ = ∑ a : Fin 131072, g a.val
  rw [Fin.sum_univ_eq_sum_range g 131072]
  -- the left side: the summand depends on the half alone
  rw [sum_idx3 (fun i => acc g (32 * (i 0).val + 31))]
  show ∑ a : Fin 2, ∑ _b : Fin 8, ∑ _c : Fin 128, acc g (32 * a.val + 31) = _
  have hhalf : ∀ a : Fin 2, ∑ _b : Fin 8, ∑ _c : Fin 128, acc g (32 * a.val + 31)
      = ∑ i ∈ Finset.range 32, tile g (a.val * 32 + i) := by
    intro a
    rw [Finset.sum_const, Finset.sum_const, Finset.card_univ, Finset.card_univ, Fintype.card_fin, Fintype.card_fin,
      smul_smul, acc_last, show 8 * 128 = 1024 from rfl, nsmul_1024_mul_kappa, Nat.mul_comm 32 a.val]
  rw [Finset.sum_congr rfl (fun a _ => hhalf a),
    Fin.sum_univ_eq_sum_range (fun a => ∑ i ∈ Finset.range 32, tile g (a * 32 + i)) 2,
    sum_runs (fun p => tile g p) 32 2]
  -- 64 blocks of 2048 rows are the 131072 rows
  rw [Finset.sum_congr rfl (fun p _ => tile_eq_range g p), sum_runs g 2048 (2 * 32)]

end Cert.TileLaw

end
-- ==== Proof.KernelValue.lean ====
import proofs.«161431_j1829656068283_1_alg».proof.Proof.KernelCases
import proofs.«161431_j1829656068283_1_alg».proof.Proof.KernelBody
import proofs.«161431_j1829656068283_1_alg».proof.Proof.TileLaw
import Idealize.ShloMosaic.Lib.StableHlo.Run

/-!
  The idealized kernel's result, read off its run. The grid's 64 points are the 64 blocks of 2048 rows, in order; the
  table is the same whole array at every point. By induction on the point, every entry of the accumulator tile holds
  the running total of the half's blocks so far, each block's sum of nearest-row distances times 1/1024. A half's last
  point writes its tile into its slice of the [2, 8, 128] result, so every entry of slice `q` ends at the total of half
  `q`. The lines after the region add all 2048 entries from the zero word and divide by the word of 131072: by the
  summation law that is the mean of the nearest-row distances over all 131072 rows.
-/

open scoped BigOperators

noncomputable section

namespace Cert.KernelIdeal.Value

open Idealize.ShloMosaic Idealize.ShloMosaic.TcCoe Idealize.SL.Sem Idealize.ShloMosaic.ValueIdx
open Idealize.ShloMosaic.Pipeline (Dat)
open Cert.KernelIdeal Cert.KernelIdeal.Gen Cert.Nearest Cert.TileLaw

variable (m : (ℓ : Loc nD τ sig) → Buf (Elt Ideal) ℓ) (ρ : Dev nD → PrngReg)

/-- The two argument arrays as the region finds them, and the two input blocks at a point, at their literal types. -/
abbrev xarr (c : Dev nD) : Vec Ideal S131072x256 .f32 := V m c main_arg0
abbrev carr (c : Dev nD) : Vec Ideal S1024x256 .f32 := V m c main_arg1
abbrev xblk (c : Dev nD) (t : Fin cfg0.N) : Vec Ideal S2048x256 .f32 := iblk m c 0 t
abbrev cblk (c : Dev nD) (t : Fin cfg0.N) : Vec Ideal S1024x256 .f32 := iblk m c 1 t

/-- The nearest-row distance of row `n` of the first argument against the second. -/
abbrev g (c : Dev nD) : ℕ → EReal := rowVal (xarr m c) (carr m c)

/-- The printed index maps over the grid: point `t` reads row block `t` of the first argument and the whole table, and
    writes slice `t / 32` of the result. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 3) = t.val / 32 ∧ win0_2.index t (1 : Fin 3) = 0 ∧ win0_2.index t (2 : Fin 3) = 0 :=
  (by decide +kernel : ∀ t : Fin grid0.N, _)

/-- Row `r` of the block at point `t` is row `2048 t + r` of the array. -/
theorem xblk_apply (c : Dev nD) (t : Fin cfg0.N) (r : Fin 2048) (d : Fin 256) (h : t.val * 2048 + r.val < 131072) :
    xblk m c t (ix2 r d) = xarr m c (ix2 ⟨t.val * 2048 + r.val, h⟩ d) := by
  obtain ⟨e0, e1, -⟩ := idx_facts t
  show iblk m c 0 t (ix2 r d) = V m c main_arg0 _
  unfold iblk
  rw [View.read_apply]
  show V m c main_arg0 _ = V m c main_arg0 _
  congr 1
  funext a
  apply Fin.ext
  match a with
  | ⟨0, _⟩ => show win0_0.index t (0 : Fin 2) * 2048 + 1 * r.val = t.val * 2048 + r.val; rw [e0]; omega
  | ⟨1, _⟩ => show win0_0.index t (1 : Fin 2) * 256 + 1 * d.val = d.val; rw [e1]; omega

/-- The table's block at every point is the whole table. -/
theorem cblk_apply (c : Dev nD) (t : Fin cfg0.N) (k : Fin 1024) (d : Fin 256) :
    cblk m c t (ix2 k d) = carr m c (ix2 k d) := by
  obtain ⟨-, -, e0, e1, -⟩ := idx_facts t
  show iblk m c 1 t (ix2 k d) = V m c main_arg1 _
  unfold iblk
  rw [View.read_apply]
  show V m c main_arg1 _ = V m c main_arg1 _
  congr 1
  funext a
  apply Fin.ext
  match a with
  | ⟨0, _⟩ => show win0_1.index t (0 : Fin 2) * 1024 + 1 * k.val = k.val; rw [e0]; omega
  | ⟨1, _⟩ => show win0_1.index t (1 : Fin 2) * 256 + 1 * d.val = d.val; rw [e1]; omega

/-- So the block's sum of nearest-row distances is the sum of `g` over the block's 2048 rows. -/
theorem blockSum_eq (c : Dev nD) (t : Fin cfg0.N) :
    Body.blockSum (xblk m c t) (cblk m c t) = tile (g m c) t.val := by
  have hN : t.val < 64 := lt_of_lt_of_eq t.isLt N_0
  unfold Body.blockSum tile
  refine Finset.sum_congr rfl fun r _ => ?_
  have hr : r.val < 2048 := r.isLt
  have h : t.val * 2048 + r.val < 131072 := by omega
  show _ = rowVal (xarr m c) (carr m c) (t.val * 2048 + r.val)
  unfold rowVal
  rw [dif_pos h]
  have ex : rowOf (R := 2048) (xblk m c t) r = rowOf (R := 131072) (xarr m c) ⟨t.val * 2048 + r.val, h⟩ :=
    funext fun d => xblk_apply m c t r d h
  have ec : (fun k => rowOf (R := 1024) (cblk m c t) k) = fun k => rowOf (R := 1024) (carr m c) k :=
    funext fun k => funext fun d => cblk_apply m c t k d
  rw [ex, ec]

/-- The zero tile the body stores at the first block of a half reads zero at every entry. -/
theorem pay1_apply (i : S1x8x128.Idx) : k0_pay1 (F := Ideal) i = 0 := by
  show Ideal.ofBits .f32 0x00000000#32 = 0
  exact Ideal.ofBits_zero_f32

/-- THE RUNNING TOTAL: after point `n` every entry of the accumulator tile holds the running total of the half's
    blocks up to `n`. By induction on the point. -/
theorem outsAt_eq (c : Dev nD) : ∀ (n : ℕ) (h : n < cfg0.N), outsAt0 m c n h = fun _ => acc (g m c) n
  | 0, h => by
    refine (outsAt0_A m c ⟨0, h⟩ rfl).trans ?_
    rw [Cases.out_A]
    funext i
    refine (Body.pay2_apply (xblk m c ⟨0, h⟩) (cblk m c ⟨0, h⟩) (k0_pay1 (F := Ideal)) i).trans ?_
    rw [blockSum_eq, pay1_apply, zero_add]
    rfl
  | n + 1, h => by
    by_cases h0 : (n + 1) % 32 = 0
    · refine (outsAt0_A m c ⟨n + 1, h⟩ h0).trans ?_
      rw [Cases.out_A]
      funext i
      refine (Body.pay2_apply (xblk m c ⟨n + 1, h⟩) (cblk m c ⟨n + 1, h⟩) (k0_pay1 (F := Ideal)) i).trans ?_
      rw [blockSum_eq, pay1_apply, zero_add]
      exact (acc_restart (g m c) (n + 1) h0).symm
    · refine (outsAt0_B m c ⟨n + 1, h⟩ h0).trans ?_
      rw [Cases.out_B]
      funext i
      refine (Body.pay2_apply (xblk m c ⟨n + 1, h⟩) (cblk m c ⟨n + 1, h⟩) (outsAt0 m c n (Nat.lt_of_succ_lt h)) i).trans ?_
      rw [blockSum_eq, outsAt_eq c n (Nat.lt_of_succ_lt h)]
      exact (acc_step (g m c) n h0).symm

/-! ## The result array -/

/-- What the [2, 8, 128] result ends holding: every entry of slice `q` is the total of half `q` after its last block. -/
abbrev garr (c : Dev nD) : Buf (Elt Ideal) ((c : Thread nD τ).loc main_v0) :=
  fun i => acc (g m c) (32 * (i 0).val + 31)

/-- A half's last point writes back its tile, and that is the point's slice of `garr`. -/
theorem flushed_eq (c : Dev nD) (t : Fin cfg0.N) (hf : (cfg0.win 2).flush t = true) :
    (dats m 0 c).flushed 2 t = ((cfg0.win 2).blk t).view.read (Elt Ideal) (garr m c) := by
  have hN : t.val < 64 := lt_of_lt_of_eq t.isLt N_0
  have h31 : t.val % 32 = 31 := (flush0_2 t).mp hf
  obtain ⟨-, -, -, -, e0, -, -⟩ := idx_facts t
  show (cfg0.win 2).cut (grid0.coords t) ((dats m 0 c).after 2 t) = _
  rw [after0_2, outsAt_eq]
  funext y
  show acc (g m c) t.val = garr m c (((cfg0.win 2).blk t).view.emb y)
  have hy : ((((cfg0.win 2).blk t).view.emb y) (0 : Fin 3)).val = t.val / 32 := by
    show win0_2.index t (0 : Fin 3) * 1 + 1 * (y 0).val = t.val / 32
    have hy0 : (y 0).val < 1 := (y 0).isLt
    rw [e0]; omega
  show acc (g m c) t.val = acc (g m c) (32 * ((((cfg0.win 2).blk t).view.emb y) (0 : Fin 3)).val + 31)
  rw [hy]
  congr 1
  omega

/-- An index of the result is in point `t`'s block iff each coordinate is in the block's range on its axis. -/
theorem mem_blk (t : Fin cfg0.N) (i : S2x8x128.Idx) :
    i ∈ ((cfg0.win 2).blk t).view.set ↔ ∀ a : Fin 3, win0_2.index t a * S1x8x128.size a ≤ (i a).val
      ∧ (i a).val < win0_2.index t a * S1x8x128.size a + S1x8x128.size a := by
  show i ∈ ((View.whole main_v0).slice (win0_2.rect t)).set ↔ _
  rw [View.set_slice_whole, Rect.mem_set_unit]
  exact Iff.rfl

/-- Every entry of the result is written by the last point of its half. -/
theorem cover (i : S2x8x128.Idx) :
    ∃ t : Fin cfg0.N, (cfg0.win 2).flush t = true ∧ i ∈ ((cfg0.win 2).blk t).view.set := by
  have h0 : (i 0).val < 2 := (i 0).isLt
  have h1 : (i 1).val < 8 := (i 1).isLt
  have h2 : (i 2).val < 128 := (i 2).isLt
  have hN : cfg0.N = 64 := N_0
  have hlt : 32 * (i 0).val + 31 < cfg0.N := by omega
  obtain ⟨-, -, -, -, e0, e1, e2⟩ := idx_facts ⟨32 * (i 0).val + 31, hlt⟩
  have e0' : win0_2.index ⟨32 * (i 0).val + 31, hlt⟩ (0 : Fin 3) = (i 0).val := by rw [e0]; show (32 * (i 0).val + 31) / 32 = _; omega
  refine ⟨⟨32 * (i 0).val + 31, hlt⟩, (flush0_2 _).mpr (by show (32 * (i 0).val + 31) % 32 = 31; omega), ?_⟩
  rw [mem_blk]
  intro a
  match a with
  | ⟨0, _⟩ =>
    show win0_2.index ⟨32 * (i 0).val + 31, hlt⟩ (0 : Fin 3) * 1 ≤ (i 0).val
      ∧ (i 0).val < win0_2.index ⟨32 * (i 0).val + 31, hlt⟩ (0 : Fin 3) * 1 + 1
    rw [e0']; omega
  | ⟨1, _⟩ =>
    show win0_2.index ⟨32 * (i 0).val + 31, hlt⟩ (1 : Fin 3) * 8 ≤ (i 1).val
      ∧ (i 1).val < win0_2.index ⟨32 * (i 0).val + 31, hlt⟩ (1 : Fin 3) * 8 + 8
    rw [e1]; omega
  | ⟨2, _⟩ =>
    show win0_2.index ⟨32 * (i 0).val + 31, hlt⟩ (2 : Fin 3) * 128 ≤ (i 2).val
      ∧ (i 2).val < win0_2.index ⟨32 * (i 0).val + 31, hlt⟩ (2 : Fin 3) * 128 + 128
    rw [e2]; omega

/-- So the result array ends at `garr`. -/
theorem final (c : Dev nD) : (dats m 0 c).arrAt 2 cfg0.N = garr m c :=
  (dats m 0 c).arrAt_eq_of_cover 2 (garr m c) (flushed_eq m c) cover

/-! ## The lines after the region -/

/-- The program's result after the lines that follow the region: the sum of the result array from the zero word,
    divided by the word of 131072. -/
theorem tail_eq (c : Dev nD) :
    Pipeline.afterTail₀ cfgs (dats m) 0 (V0 m) [hostOps1] c main_v2
      = (Host.divf (F := Ideal) (Host.reduceAdd (F := Ideal) (garr m c) (constant (F := Ideal) S_ .f32 0x00000000#32)
          reducesTo_S2x8x128_S_d0_1_2 h_S_) (constant (F := Ideal) S_ .f32 0x48000000#32) : FVec Ideal S_ .f32) := by
  unfold Pipeline.afterTail₀
  show StableHlo.after hostOps1 _ (Proc.devRef .tc main_v2) = _
  after_results
  have e : Pipeline.withArrays (cfgs 0).spec c (V0 m c) (fun w => (dats m 0 c).arrAt w (cfgs 0).N)
      (Proc.devRef .tc main_v0) = garr m c :=
    (Pipeline.withArrays_arr spec0 launch0.win.arr_inj c _ _ 2).trans (final m c)
  rw [e]

/-- THE KERNEL'S VALUE: the program's result is the mean of the nearest-row distances of the first argument's rows
    against the second argument. The sum over the [2, 8, 128] result of the halves' totals is the sum over all rows, by
    the summation law; the zero word it starts from and the word it is divided by are the reference's own. -/
theorem result_eq (c : Dev nD) :
    Pipeline.afterTail₀ cfgs (dats m) 0 (V0 m) [hostOps1] c main_v2 = meanNearest (xarr m c) (carr m c) := by
  rw [tail_eq]
  funext i
  show FloatOps.hostDivf (Host.reduceAdd (F := Ideal) (garr m c) (constant (F := Ideal) S_ .f32 0x00000000#32)
    reducesTo_S2x8x128_S_d0_1_2 h_S_ i) (constant (F := Ideal) S_ .f32 0x48000000#32 i) = _
  simp only [Host.reduceAdd, Ideal.hostReduceAdd_def, Ideal.hostDivf_def]
  rw [Ideal.hostReduceAdd_total reducesTo_S2x8x128_S_d0_1_2 (fun b => b.elim0) (garr m c) _ i]
  unfold meanNearest
  show Ideal.div (Ideal.ofBits .f32 0x00000000#32 + ∑ j : S2x8x128.Idx, acc (g m c) (32 * (j 0).val + 31))
      (Ideal.ofBits .f32 0x48000000#32) = _
  rw [sum_acc (g m c)]

/-! ## The run, read -/

/-- Every weakly fair execution of the idealized kernel terminates with its result at the mean of the nearest-row
    distances of its arguments, the arguments unchanged. -/
theorem run : θ_run defs (onTc (τ := τ) (main (F := Ideal))) ⟨m, fun _ => 0, ρ⟩ fun r => ∀ c : Dev nD,
      r.2.mem ((c.tc : Thread nD τ).loc main_v2)
        = meanNearest (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v2 (by decide)).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Value

end
-- ==== Proof.RefValue.lean ====
import proofs.«161431_j1829656068283_1_alg».proof.Proof.Gen.ReferenceIdeal.Read
import proofs.«161431_j1829656068283_1_alg».proof.Proof.Nearest
import Idealize.ShloMosaic.PureOps.Reduce

/-!
  The reference program's result, read one operation at a time at the ideal values, is the mean of the nearest-row
  distances: each row's least distance is the fold of `min` from +∞ over the 1024 expanded squared distances, the rows
  are summed from the zero word, and the sum is divided by the word of 131072.
-/

open scoped BigOperators

noncomputable section

namespace Cert.ReferenceIdeal.RefValue

open Idealize.ShloMosaic Idealize.ShloMosaic.ValueIdx Cert.ReferenceIdeal Cert.ReferenceIdeal.Read Cert.Nearest

/-- The first row-sum stage at row `i`: zero plus the sum of the squares of that row of `X`, which is ‖X i‖². -/
theorem v1_eq (X : (⟨S131072x256, .f32⟩ : BufTy).Contents (Elt Ideal)) (i : S131072.Idx) :
    val_main_v1 (F := Ideal) X i = sqn (rowOf (R := 131072) X (i 0)) := by
  rw [val_main_v1_apply, val_main_cst_apply, Ideal.ofBits_def, Ideal.ofBits_zero_f32, zero_add]
  unfold sqn
  refine Finset.sum_congr rfl fun d _ => ?_
  rw [val_main_v0_apply, Ideal.mulf_def]
  have e : idx_main_v1 i d = ix2 (i 0) d :=
    funext fun a => Fin.ext (by match a with | ⟨0, _⟩ => rfl | ⟨1, _⟩ => rfl)
  rw [e]
  rfl

/-- The second row-sum stage at row `i`: zero plus the sum of the squares of that row of `C`, which is ‖C i‖². -/
theorem v4_eq (C : (⟨S1024x256, .f32⟩ : BufTy).Contents (Elt Ideal)) (i : S1024.Idx) :
    val_main_v4 (F := Ideal) C i = sqn (rowOf (R := 1024) C (i 0)) := by
  rw [val_main_v4_apply, val_main_cst_0_apply, Ideal.ofBits_def, Ideal.ofBits_zero_f32, zero_add]
  unfold sqn
  refine Finset.sum_congr rfl fun d _ => ?_
  rw [val_main_v3_apply, Ideal.mulf_def]
  have e : idx_main_v4 i d = ix2 (i 0) d :=
    funext fun a => Fin.ext (by match a with | ⟨0, _⟩ => rfl | ⟨1, _⟩ => rfl)
  rw [e]
  rfl

/-- The contraction X · Cᵀ at (n, k) is the inner product of row `n` of `X` with row `k` of `C`: the transpose
    only swaps the two coordinates at which `C` is read. -/
theorem v7_eq (X : (⟨S131072x256, .f32⟩ : BufTy).Contents (Elt Ideal))
    (C : (⟨S1024x256, .f32⟩ : BufTy).Contents (Elt Ideal)) (i : S131072x1024.Idx) :
    val_main_v7 (F := Ideal) X C i = dot (rowOf (R := 131072) X (i 0)) (rowOf (R := 1024) C (i 1)) := by
  rw [val_main_v7_apply]
  unfold dot
  refine Finset.sum_congr rfl fun d _ => ?_
  rw [val_main_v6_apply]
  have e1 : lidx_main_v7 i d = ix2 (i 0) d :=
    funext fun a => Fin.ext (by match a with | ⟨0, _⟩ => rfl | ⟨1, _⟩ => rfl)
  have e2 : idx_main_v6 (ridx_main_v7 i d) = ix2 (i 1) d :=
    funext fun a => Fin.ext (by match a with | ⟨0, _⟩ => rfl | ⟨1, _⟩ => rfl)
  rw [e1, e2]
  rfl

/-- The expanded squared distance at (n, k): (‖X n‖² + ‖C k‖²) − 2·⟨X n, C k⟩, the two squared norms broadcast
    along the other axis and the literal 2 broadcast to every entry. -/
theorem v13_eq (X : (⟨S131072x256, .f32⟩ : BufTy).Contents (Elt Ideal))
    (C : (⟨S1024x256, .f32⟩ : BufTy).Contents (Elt Ideal)) (i : S131072x1024.Idx) :
    val_main_v13 (F := Ideal) X C i = dist2 (rowOf (R := 131072) X (i 0)) (rowOf (R := 1024) C (i 1)) := by
  rw [val_main_v13_apply, val_main_v10_apply, val_main_v8_apply, val_main_v2_apply, v1_eq,
    val_main_v9_apply, val_main_v5_apply, v4_eq, val_main_v12_apply, val_main_v11_apply,
    val_main_cst_1_apply, v7_eq, Ideal.subf_def, Ideal.addf_def, Ideal.mulf_def, Ideal.ofBits_def]
  rfl

/-- The row minima: entry `j` of the min-reduce is the nearest-row distance of row `j`. -/
theorem val_main_v14_apply (X : (⟨S131072x256, .f32⟩ : BufTy).Contents (Elt Ideal))
    (C : (⟨S1024x256, .f32⟩ : BufTy).Contents (Elt Ideal)) (j : S131072.Idx) :
    val_main_v14 (F := Ideal) X C j = rowVal X C (j 0).val := by
  have h : S131072x1024.Reduces [1] S131072 := by decide
  unfold val_main_v14
  rw [Host.reduce_eq_fold_single (FloatOps.minimumf (F := Ideal) (φ := .f32)) (val_main_v13 (F := Ideal) X C)
    (val_main_cst_2 (F := Ideal)) Gen.reducesTo_S131072x1024_S131072_d1 h Gen.h_S_ j,
    val_main_cst_2_apply, Ideal.ofBits_def]
  unfold rowVal
  rw [dif_pos (show (j 0).val < 131072 from (j 0).isLt)]
  unfold nearest
  refine Finset.fold_congr fun k _ => ?_
  show val_main_v13 (F := Ideal) X C (h.lift j k) = _
  rw [v13_eq]
  rfl

/-- The reference's result is the mean of the nearest-row distances. -/
theorem result_eq (X : (⟨S131072x256, .f32⟩ : BufTy).Contents (Elt Ideal))
    (C : (⟨S1024x256, .f32⟩ : BufTy).Contents (Elt Ideal)) :
    val_main_v16 (F := Ideal) X C = meanNearest X C := by
  funext i
  rw [val_main_v16_apply, val_main_v15_apply, val_main_cst_3_apply, val_main_cst_4_apply, Ideal.hostDivf_def]
  simp only [Ideal.ofBits_def, val_main_v14_apply]
  rfl

end Cert.ReferenceIdeal.RefValue

end
-- ==== Proof.lean ====
/-
  The mean, over the 131072 rows of a [131072, 256] array, of the squared distance from the row to the nearest of the
  1024 rows of a [1024, 256] table, the distance taken in its expanded form ‖x‖² + ‖c‖² − 2·⟨x, c⟩ and the least of the
  1024 as the fold of `min` from +∞.

  The kernel walks the rows in 64 blocks of 2048, in two halves of 32 blocks. At each block it takes every row's
  nearest-row distance, adds the 2048 of them, divides by 1024 and adds the quotient into every entry of an 8 × 128
  tile, which it zeroes at the first block of a half and writes into its slice of a [2, 8, 128] result after the last.
  The lines after the region add all 2048 entries of the result and divide by 131072. The reference forms the whole
  [131072, 1024] array of distances, takes each row's minimum, adds the 131072 minima and divides by 131072.

  Read at the extended reals the two agree on every input, infinite entries included. Entry by entry the two programs
  form the same expanded distance: a row sum of squares and a matrix product are plain sums there, a change of float
  format is the identity, and the literal 2 and the +∞ are the same words on both sides. The two minima are the same
  fold. What differs is the grouping of the outer sum, and the division by 1024 that the kernel undoes by adding each
  half's total 1024 times: multiplying by the nonnegative real 1/1024 distributes over sums of extended reals, and 1024
  copies of s · (1/1024) add up to s. So neither side's arithmetic is ever cancelled across an infinity, and the
  precondition that the inputs are finite is not used.

  The kernel's value is read off its generated frame run (the running total by induction on the grid point, the
  result array from the two points that write back, then the two lines after the region); the reference's off its
  generated run, one operation at a time. The word-level kernel's frame and the idealized kernel's are the generated
  ones; the reference's frame is its run with the result dropped; the ideal pass rewrote nothing.
-/
import proofs.«161431_j1829656068283_1_alg».proof.Defs
import proofs.«161431_j1829656068283_1_alg».proof.Proof.Gen.Kernel
import proofs.«161431_j1829656068283_1_alg».proof.Proof.Gen.Kernel.Skeleton
import proofs.«161431_j1829656068283_1_alg».proof.Proof.Gen.Kernel.Launch
import proofs.«161431_j1829656068283_1_alg».proof.Proof.Gen.Kernel.Points
import proofs.«161431_j1829656068283_1_alg».proof.Proof.Gen.Kernel.Frame
import proofs.«161431_j1829656068283_1_alg».proof.Proof.Gen.KernelIdeal
import proofs.«161431_j1829656068283_1_alg».proof.Proof.Gen.KernelIdeal.Skeleton
import proofs.«161431_j1829656068283_1_alg».proof.Proof.Gen.KernelIdeal.Launch
import proofs.«161431_j1829656068283_1_alg».proof.Proof.Gen.KernelIdeal.Points
import proofs.«161431_j1829656068283_1_alg».proof.Proof.Gen.KernelIdeal.Frame
import proofs.«161431_j1829656068283_1_alg».proof.Proof.Gen.ReferenceIdeal
import proofs.«161431_j1829656068283_1_alg».proof.Proof.Gen.Pre_finite_inputs
import proofs.«161431_j1829656068283_1_alg».proof.Proof.Gen.ReferenceIdeal.Run
import proofs.«161431_j1829656068283_1_alg».proof.Proof.Gen.ReferenceIdeal.Read
import proofs.«161431_j1829656068283_1_alg».proof.Proof.KernelValue
import proofs.«161431_j1829656068283_1_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- Both programs end at the mean of the nearest-row distances of arguments that agree. -/
theorem algebraic : Cert.algebraic_KernelIdeal_ReferenceIdeal := by
  intro m ρ m' ρ' _ hagree
  refine ⟨_, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
